-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x128 : S_.BroadcastsInDim S2x128 (![] : Fin 0 → Fin S2x128.rank)
  reducesTo_S2x128_S_d0_1 : S2x128.ReducesTo [0, 1] S_
  bcast_S_S300000 : S_.BroadcastsInDim S300000 (![] : Fin 0 → Fin S300000.rank)
  reducesTo_S300000_S_d0 : S300000.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg6 : FVec F S300000 .f32) (main_arg7 : FVec F S128x128 .f32) (main_arg8 : FVec F S128x128 .f32) (main_arg9 : FVec F S128x128 .f32) (main_v13 : IVec S_ 1) (main_v16 : IVec S300000 1) : IVec S_ 1 :=
  let main_c_5 : IVec S_ 1 := constantI S_ 1 1#1
  let main_v17 : IVec S_ 1 := (fun x v => Host.reduce IntOp.andi x v reducesTo_S300000_S_d0 h_S_) main_v16 main_c_5
  let main_v18 : IVec S_ 1 := andi main_v13 main_v17
  let main_v19 : FVec F S300000 .f32 := Host.absf main_arg6
  let main_cst_6 : FVec F S_ .f32 := constant S_ .f32 0x7F800000#32
  let main_v20 : FVec F S300000 .f32 := broadcastInDim S300000 ![] bcast_S_S300000 main_cst_6
  let main_v21 : IVec S300000 1 := cmpf .olt main_v19 main_v20
  let main_c_7 : IVec S_ 1 := constantI S_ 1 1#1
  let main_v22 : IVec S_ 1 := (fun x v => Host.reduce IntOp.andi x v reducesTo_S300000_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S50000x128 .f32) (main_arg2 : FVec F S2x128 .f32) (main_arg3 : IVec S2x300000 32) (main_arg4 : FVec F S300000 .f32) (main_arg5 : IVec S2x300000 32) (main_arg6 : FVec F S300000 .f32) (main_arg7 : FVec F S128x128 .f32) (main_arg8 : FVec F S128x128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S300000 .f32 := Host.absf main_arg4
  let main_cst_4 : FVec F S_ .f32 := constant S_ .f32 0x7F800000#32
  let main_v15 : FVec F S300000 .f32 := broadcastInDim S300000 ![] bcast_S_S300000 main_cst_4
  let main_v16 : IVec S300000 1 := cmpf .olt main_v14 main_v15
  fn_part1 (F := F) main_arg6 main_arg7 main_arg8 main_arg9 main_v13 main_v16
-- ==== Kernel.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S2x600000 : Shape := ⟨2, ![2, 600000]⟩
abbrev S600000 : Shape := ⟨1, ![600000]⟩
abbrev S_ : Shape := ⟨0, ![]⟩
abbrev S1x600000 : Shape := ⟨2, ![1, 600000]⟩
abbrev S100000 : Shape := ⟨1, ![100000]⟩
abbrev S600000x1 : Shape := ⟨2, ![600000, 1]⟩
abbrev S50000 : Shape := ⟨1, ![50000]⟩
abbrev S600000x128 : Shape := ⟨2, ![600000, 128]⟩
abbrev S5000x128 : Shape := ⟨2, ![5000, 128]⟩

abbrev nBuf : Space → Nat
  | .hbm => 108
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S2x300000, .i32⟩
  | .hbm, ⟨4, _⟩ => ⟨S300000, .f32⟩
  | .hbm, ⟨5, _⟩ => ⟨S2x300000, .i32⟩
  | .hbm, ⟨6, _⟩ => ⟨S300000, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S2x600000, .i32⟩
  | .hbm, ⟨11, _⟩ => ⟨S600000, .f32⟩
  | .hbm, ⟨12, _⟩ => ⟨S_, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000, .f32⟩
  | .hbm, ⟨56, _⟩ => ⟨S600000, .f32⟩
  | .hbm, ⟨57, _⟩ => ⟨S600000, .f32⟩
  | .hbm, ⟨58, _⟩ => ⟨S_, .f32⟩
  | .hbm, ⟨59, _⟩ => ⟨S600000, .f32⟩
  | .hbm, ⟨60, _⟩ => ⟨S600000, .f32⟩
  | .hbm, ⟨61, _⟩ => ⟨S600000, .f32⟩
  | .hbm, ⟨62, _⟩ => ⟨S600000x1, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S600000x128, .f32⟩
  | .hbm, ⟨82, _⟩ => ⟨S600000x128, .f32⟩
  | .hbm, ⟨83, _⟩ => ⟨S600000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S600000x128, .f32⟩
  | .hbm, ⟨94, _⟩ => ⟨S600000x128, .f32⟩
  | .hbm, ⟨95, _⟩ => ⟨S600000x128, .f32⟩
  | .hbm, ⟨96, _⟩ => ⟨S_, .f32⟩
  | .hbm, ⟨97, _⟩ => ⟨S100000x128, .f32⟩
  | .hbm, ⟨98, _⟩ => ⟨S600000x1, .i32⟩
  | .hbm, ⟨99, _⟩ => ⟨S100000x128, .f32⟩
  | .hbm, ⟨100, _⟩ => ⟨S_, .f32⟩
  | .hbm, ⟨101, _⟩ => ⟨S50000x128, .f32⟩
  | .hbm, ⟨102, _⟩ => ⟨S600000x1, .i32⟩
  | .hbm, ⟨103, _⟩ => ⟨S50000x128, .f32⟩
  | .hbm, ⟨104, _⟩ => ⟨S100000x128, .f32⟩
  | .hbm, ⟨105, _⟩ => ⟨S50000x128, .f32⟩
  | .hbm, ⟨106, _⟩ => ⟨S128x128, .f32⟩
  | .hbm, ⟨107, _⟩ => ⟨S2x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S2x300000_S2x300000_S2x600000_d1 : Shape.Concatenates [S2x300000, S2x300000] S2x600000 1
  concatenates_S300000_S300000_S600000_d0 : Shape.Concatenates [S300000, S300000] S600000 0
  bcast_S_S300000 : S_.BroadcastsInDim S300000 (![] : Fin 0 → Fin S300000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  transposes_S128x128_S128x128_1_0 : S128x128.Transposes [1, 0] S128x128
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S100000_S600000x1_S600000_n_0_n_n_0_1_1_wf : GatherDims.WF S100000 S600000x1 S600000 [] [0] [] [0] [] 1 ![1]
  gather_S50000_S600000x1_S600000_n_0_n_n_0_1_1_wf : GatherDims.WF S50000 S600000x1 S600000 [] [0] [] [0] [] 1 ![1]
  gather_S2x128_S600000x1_S600000x128_1_0_n_n_0_1_1128_wf : GatherDims.WF S2x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S2x128_S128x128_S2x128_1_0_0_1_n_n_wf : DotDims.WF S2x128 S128x128 S2x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S2x128_S600000x1_S600000x128_1_0_n_n_0_1_1128 : GatherDims S2x128 S600000x1 S600000x128 where
  offsetDims := [1]
  collapsedSliceDims := [0]
  operandBatchingDims := []
  startIndicesBatchingDims := []
  startIndexMap := [0]
  indexVectorDim := 1
  sliceSizes := ![1, 128]
  wf := gather_S2x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

abbrev win0_0 : Pipeline.Window sig grid0 :=
  Pipeline.Window.ofSpec (Memref.whole main_v67) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v70) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S2x600000 : Shape := ⟨2, ![2, 600000]⟩
abbrev S600000 : Shape := ⟨1, ![600000]⟩
abbrev S_ : Shape := ⟨0, ![]⟩
abbrev S1x600000 : Shape := ⟨2, ![1, 600000]⟩
abbrev S100000 : Shape := ⟨1, ![100000]⟩
abbrev S600000x1 : Shape := ⟨2, ![600000, 1]⟩
abbrev S50000 : Shape := ⟨1, ![50000]⟩
abbrev S600000x128 : Shape := ⟨2, ![600000, 128]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S2x300000, .i32⟩
  | .hbm, ⟨4, _⟩ => ⟨S300000, .f32⟩
  | .hbm, ⟨5, _⟩ => ⟨S2x300000, .i32⟩
  | .hbm, ⟨6, _⟩ => ⟨S300000, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S2x600000, .i32⟩
  | .hbm, ⟨11, _⟩ => ⟨S600000, .f32⟩
  | .hbm, ⟨12, _⟩ => ⟨S_, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000, .f32⟩
  | .hbm, ⟨56, _⟩ => ⟨S600000, .f32⟩
  | .hbm, ⟨57, _⟩ => ⟨S600000, .f32⟩
  | .hbm, ⟨58, _⟩ => ⟨S_, .f32⟩
  | .hbm, ⟨59, _⟩ => ⟨S600000, .f32⟩
  | .hbm, ⟨60, _⟩ => ⟨S600000, .f32⟩
  | .hbm, ⟨61, _⟩ => ⟨S600000, .f32⟩
  | .hbm, ⟨62, _⟩ => ⟨S600000x1, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S600000x128, .f32⟩
  | .hbm, ⟨82, _⟩ => ⟨S600000x128, .f32⟩
  | .hbm, ⟨83, _⟩ => ⟨S600000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S600000x128, .f32⟩
  | .hbm, ⟨94, _⟩ => ⟨S600000x128, .f32⟩
  | .hbm, ⟨95, _⟩ => ⟨S600000x128, .f32⟩
  | .hbm, ⟨96, _⟩ => ⟨S_, .f32⟩
  | .hbm, ⟨97, _⟩ => ⟨S100000x128, .f32⟩
  | .hbm, ⟨98, _⟩ => ⟨S600000x1, .i32⟩
  | .hbm, ⟨99, _⟩ => ⟨S100000x128, .f32⟩
  | .hbm, ⟨100, _⟩ => ⟨S_, .f32⟩
  | .hbm, ⟨101, _⟩ => ⟨S50000x128, .f32⟩
  | .hbm, ⟨102, _⟩ => ⟨S600000x1, .i32⟩
  | .hbm, ⟨103, _⟩ => ⟨S50000x128, .f32⟩
  | .hbm, ⟨104, _⟩ => ⟨S128x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S_, .f32⟩
  | .hbm, ⟨122, _⟩ => ⟨S50000x128, .f32⟩
  | .hbm, ⟨123, _⟩ => ⟨S50000x128, .f32⟩
  | .hbm, ⟨124, _⟩ => ⟨S128x128, .f32⟩
  | .hbm, ⟨125, _⟩ => ⟨S2x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  concatenates_S2x300000_S2x300000_S2x600000_d1 : Shape.Concatenates [S2x300000, S2x300000] S2x600000 1
  concatenates_S300000_S300000_S600000_d0 : Shape.Concatenates [S300000, S300000] S600000 0
  bcast_S_S300000 : S_.BroadcastsInDim S300000 (![] : Fin 0 → Fin S300000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  transposes_S128x128_S128x128_1_0 : S128x128.Transposes [1, 0] S128x128
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S100000_S600000x1_S600000_n_0_n_n_0_1_1_wf : GatherDims.WF S100000 S600000x1 S600000 [] [0] [] [0] [] 1 ![1]
  gather_S50000_S600000x1_S600000_n_0_n_n_0_1_1_wf : GatherDims.WF S50000 S600000x1 S600000 [] [0] [] [0] [] 1 ![1]
  gather_S2x128_S600000x1_S600000x128_1_0_n_n_0_1_1128_wf : GatherDims.WF S2x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  dot_S2x128_S128x128_S2x128_1_0_0_1_n_n_wf : DotDims.WF S2x128 S128x128 S2x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S2x128_S600000x1_S600000x128_1_0_n_n_0_1_1128 : GatherDims S2x128 S600000x1 S600000x128 where
  offsetDims := [1]
  collapsedSliceDims := [0]
  operandBatchingDims := []
  startIndicesBatchingDims := []
  startIndexMap := [0]
  indexVectorDim := 1
  sliceSizes := ![1, 128]
  wf := gather_S2x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibSigmoidProduct.lean ====
/-
  The logistic function of a product with a transposed right factor, σ(x · wᵀ), as ONE whole-array function of the
  two operands (a general lemma: nothing here depends on a program; any sizes [A, K] and [C, K]).

  Entry (a, c) of σ(x · wᵀ) is σ(Σ_{k < K} x[a, k] · w[c, k]) with σ(y) = 1 / (1 + e^(-y)) on the extended reals
  (σ(-∞) = 0, σ(+∞) = 1). Two spellings of it are read here at the ideal values:
  * the matrix unit's: both operands narrowed to bf16 (the identity on ideal values), the right one transposed, a
    product into a zero accumulator, then the one-operation logistic function;
  * the host's: the right operand transposed, a dot_general, then 1 / (1 + exp(-·)) written out with two
    broadcast ones.
  Each equals `sigmoidProduct x w`, so the two are equal to each other; no law of arithmetic is needed beyond reading
  each operation at an entry, because both sum the same products in the same order over k.
-/
import Idealize.ShloMosaic.Lib.ValueIdx
import Idealize.ShloMosaic.Lib.ValueLayout
import Idealize.ShloMosaic.Lib.IdealHost
import Idealize.ShloMosaic.PureOps.Ideal.Laws
import proofs.«116732_j45045617000625_1_alg».proof.Proof.LibMatmul

noncomputable section

namespace Cert.Lib.SigmoidProduct

open Idealize.ShloMosaic Idealize.ShloMosaic.ValueIdx

variable {A K C : Nat}

/-- σ(x · wᵀ): entry (a, c) is the logistic function of the sum over k of x[a, k] · w[c, k]. -/
def sigmoidProduct (x : FVec Ideal ⟨2, ![A, K]⟩ .f32) (w : FVec Ideal ⟨2, ![C, K]⟩ .f32) : FVec Ideal ⟨2, ![A, C]⟩ .f32 :=
  fun j => Ideal.logistic (∑ k : Fin K, (x (ix2 (j 0) k) : EReal) * (w (ix2 (j 1) k) : EReal))

theorem sigmoidProduct_apply (x : FVec Ideal ⟨2, ![A, K]⟩ .f32) (w : FVec Ideal ⟨2, ![C, K]⟩ .f32) (a : Fin A) (c : Fin C) :
    sigmoidProduct x w (ix2 a c) = Ideal.logistic (∑ k : Fin K, (x (ix2 a k) : EReal) * (w (ix2 c k) : EReal)) := rfl

/-- An entry of σ(x · wᵀ) depends on one row of x and one row of w only: two pairs of operands that agree on
    those rows give the same entry. (What a block of rows of x computes is the matching block of the whole.) -/
theorem sigmoidProduct_congr {A' : Nat} (x : FVec Ideal ⟨2, ![A, K]⟩ .f32) (w : FVec Ideal ⟨2, ![C, K]⟩ .f32)
    (x' : FVec Ideal ⟨2, ![A', K]⟩ .f32) (w' : FVec Ideal ⟨2, ![C, K]⟩ .f32)
    (j : (⟨2, ![A, C]⟩ : Shape).Idx) (j' : (⟨2, ![A', C]⟩ : Shape).Idx)
    (hx : ∀ k : Fin K, x (ix2 (j 0) k) = x' (ix2 (j' 0) k)) (hw : ∀ k : Fin K, w (ix2 (j 1) k) = w' (ix2 (j' 1) k)) :
    sigmoidProduct x w j = sigmoidProduct x' w' j' := by
  unfold sigmoidProduct
  exact congrArg Ideal.logistic (Finset.sum_congr rfl fun k _ => by rw [hx k, hw k])

/-- The matrix unit's spelling: bf16-narrowed operands, the right one transposed, a product into a zero
    accumulator, the logistic function. -/
theorem kernel_spelling (x : FVec Ideal ⟨2, ![A, K]⟩ .f32) (w : FVec Ideal ⟨2, ![C, K]⟩ .f32)
    (hb : (FTy.bf16).bits < (FTy.f32).bits) (ht : (⟨2, ![C, K]⟩ : Shape).Transposes [1, 0] ⟨2, ![K, C]⟩) :
    logistic (matmul (DotDims.plain A K C) none (truncf .bf16 x hb)
        (transpose ⟨2, ![K, C]⟩ [1, 0] (truncf .bf16 w hb) ht) (constant ⟨2, ![A, C]⟩ .f32 0x00000000#32))
      = sigmoidProduct x w := by
  funext j
  obtain ⟨a, c, rfl⟩ : ∃ (a : Fin A) (c : Fin C), j = ix2 a c := ⟨j 0, j 1, eq_ix2 j⟩
  show Ideal.logistic (FloatOps.matmul (DotDims.plain A K C) none (truncf .bf16 x hb)
    (transpose ⟨2, ![K, C]⟩ [1, 0] (truncf .bf16 w hb) ht) (constant ⟨2, ![A, C]⟩ .f32 0x00000000#32) (ix2 a c)) = _
  rw [Cert.Lib.Matmul.matmul_zero_apply, sigmoidProduct_apply]
  refine congrArg Ideal.logistic (Finset.sum_congr rfl fun k _ => ?_)
  rw [transpose_ix2_apply]
  rfl

/-- The host's spelling: the right operand transposed, a dot_general, then one over one plus the exponential
    of the negation, the two ones broadcast scalars. -/
theorem host_spelling (x : FVec Ideal ⟨2, ![A, K]⟩ .f32) (w : FVec Ideal ⟨2, ![C, K]⟩ .f32)
    (h1 h2 : (⟨0, ![]⟩ : Shape).BroadcastsInDim ⟨2, ![A, C]⟩ ![])
    (ht : (⟨2, ![C, K]⟩ : Shape).Transposes [1, 0] ⟨2, ![K, C]⟩) :
    Host.divf (broadcastInDim ⟨2, ![A, C]⟩ ![] h1 (constant (F := Ideal) ⟨0, ![]⟩ .f32 0x3F800000#32))
        (addf (broadcastInDim ⟨2, ![A, C]⟩ ![] h2 (constant (F := Ideal) ⟨0, ![]⟩ .f32 0x3F800000#32))
          (Host.exp (Host.negf (Host.dotGeneral (DotDims.plain A K C) none x
            (transpose ⟨2, ![K, C]⟩ [1, 0] w ht)))))
      = sigmoidProduct x w := by
  funext j
  obtain ⟨a, c, rfl⟩ : ∃ (a : Fin A) (c : Fin C), j = ix2 a c := ⟨j 0, j 1, eq_ix2 j⟩
  show Ideal.div (broadcastInDim ⟨2, ![A, C]⟩ ![] h1 (constant (F := Ideal) ⟨0, ![]⟩ .f32 0x3F800000#32) (ix2 a c))
    (broadcastInDim ⟨2, ![A, C]⟩ ![] h2 (constant (F := Ideal) ⟨0, ![]⟩ .f32 0x3F800000#32) (ix2 a c)
      + Ideal.exp (-(FloatOps.dotGeneral (DotDims.plain A K C) none .single x
          (transpose ⟨2, ![K, C]⟩ [1, 0] w ht) (ix2 a c)))) = _
  rw [broadcastInDim_scalar_apply, Cert.Lib.Matmul.dotGeneral_apply, sigmoidProduct_apply]
  show Ideal.div (Ideal.ofBits .f32 0x3F800000#32) (Ideal.ofBits .f32 0x3F800000#32 + _) = _
  rw [Ideal.ofBits_one_f32]
  unfold Ideal.logistic
  refine congrArg (fun s => Ideal.div 1 (1 + Ideal.exp (-s))) (Finset.sum_congr rfl fun k _ => ?_)
  rw [transpose_ix2_apply]

end Cert.Lib.SigmoidProduct

end
-- ==== Proof.Region0Value.lean ====
/-
  What the first matrix-unit region (region 0) leaves in its result array, as one function of the two arrays it reads.

  The region runs its body over 20 blocks of 5000 rows: the block of x (5000 × 128) and the whole weight w
  (128 × 128) are loaded, narrowed to bf16 (the identity on ideal values), w is transposed, the product goes into a
  zero accumulator and the logistic function is applied. So point t writes rows 5000·t … 5000·t + 4999 of
  σ(x · wᵀ), and since an entry of σ(x · wᵀ) depends only on its own row of x, the blocks are restrictions of the one
  whole-array function; they tile the [100000, 128] result, so the array ends holding σ(x · wᵀ).
  Everything is stated at a parameter `V`, the buffer contents the region is entered with.
-/
import proofs.«116732_j45045617000625_1_alg».proof.Proof.Gen.KernelIdeal.Frame
import proofs.«116732_j45045617000625_1_alg».proof.Proof.LibSigmoidProduct
import Idealize.ShloMosaic.Lib.Pipeline.Value

set_option maxRecDepth 16384

noncomputable section

namespace Cert.KernelIdeal.Region0Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.SigmoidProduct

variable (V : (c : Dev nD) → (b : Ref sig .tc) → Buf (Elt Ideal) ((c : Thread nD τ).loc b))

theorem hz : (![0, 0] : Fin 2 → Nat) = fun _ => 0 := funext fun a => by fin_cases a <;> rfl

/-- The body's one store: narrowing to bf16, transposing, the product into zero and the logistic function are
    σ(x · wᵀ) of the two loaded blocks. -/
theorem payload0 (x : Vec Ideal S5000x128 .f32) (w : Vec Ideal S128x128 .f32) :
    k0_pay1 (F := Ideal) x w = sigmoidProduct (A := 5000) (K := 128) (C := 128) x w := by
  unfold k0_pay1
  rw [shapeCast_self]
  exact kernel_spelling (A := 5000) (K := 128) (C := 128) x w _ _

/-- The printed index maps over the grid: the row operand's and the result's block index is the point, on
    axis 0; the weight's block never moves. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem point_of_block0 : ∀ q : Fin 20, ∃ t : Fin cfg0.N, t.val = q.val :=
  (by decide +kernel : ∀ q : Fin 20, ∃ t : Fin grid0.N, t.val = q.val)

/-- What point `t` writes back is block `t` of σ(x · wᵀ) of the two arrays as the region finds them: rows
    5000·t … 5000·t + 4999 of the result depend on the same rows of x and on all of w. -/
theorem flushed0 (c : Dev nD) (t : Fin cfg0.N) :
    (dat0 V c).flushed 2 t = ((cfg0.win 2).blk t).view.read (Elt Ideal)
      (sigmoidProduct (A := 100000) (K := 128) (C := 128) (V c main_v67) (V c main_arg7)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [payload0]
  obtain ⟨e0, e1, e2, e3, e4, e5⟩ := index_maps0 t
  funext j
  refine sigmoidProduct_congr (A := 5000) (A' := 100000) (K := 128) (C := 128) _ _ _ _ j _ (fun k => ?_) (fun k => ?_)
  · show V c main_v67 (((cfg0.win 0).blk t).view.emb (ix2 (j 0) k)) = V c main_v67 (ix2 ((((cfg0.win 2).blk t).view.emb j) 0) k)
    refine congrArg (V c main_v67) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg7 (((cfg0.win 1).blk t).view.emb (ix2 (j 1) k)) = V c main_arg7 (ix2 ((((cfg0.win 2).blk t).view.emb j) 1) k)
    refine congrArg (V c main_arg7) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega

/-- An index of the result array lies in point `t`'s block iff each coordinate is in the block's range. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v71).slice (win0_2.rect t)).set ↔ _
  rw [View.set_slice_whole, Rect.mem_set_unit]
  exact Iff.rfl

/-- The blocks cover the result array: row r is in the block of point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := point_of_block0 ⟨(i 0).val / 5000, by omega⟩
  have ht' : t.val = (i 0).val / 5000 := ht
  obtain ⟨e0, e1, e2, e3, e4, e5⟩ := index_maps0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array when the region is left: σ(x · wᵀ) of the two arrays the region was entered with. -/
theorem result0 (c : Dev nD) :
    (dat0 V c).arrAt 2 cfg0.N = sigmoidProduct (A := 100000) (K := 128) (C := 128) (V c main_v67) (V c main_arg7) :=
  (dat0 V c).arrAt_eq_of_cover 2 _ (fun t _ => flushed0 V c t) (covered0)

end Cert.KernelIdeal.Region0Value

end
-- ==== Proof.Region1Value.lean ====
/-
  What the second matrix-unit region (region 1) leaves in its result array, as one function of the two arrays it reads.

  The region runs its body over 10 blocks of 5000 rows: the block of x (5000 × 128) and the whole weight w
  (128 × 128) are loaded, narrowed to bf16 (the identity on ideal values), w is transposed, the product goes into a
  zero accumulator and the logistic function is applied. So point t writes rows 5000·t … 5000·t + 4999 of
  σ(x · wᵀ), and since an entry of σ(x · wᵀ) depends only on its own row of x, the blocks are restrictions of the one
  whole-array function; they tile the [50000, 128] result, so the array ends holding σ(x · wᵀ).
  Everything is stated at a parameter `V`, the buffer contents the region is entered with.
-/
import proofs.«116732_j45045617000625_1_alg».proof.Proof.Gen.KernelIdeal.Frame
import proofs.«116732_j45045617000625_1_alg».proof.Proof.LibSigmoidProduct
import Idealize.ShloMosaic.Lib.Pipeline.Value

set_option maxRecDepth 16384

noncomputable section

namespace Cert.KernelIdeal.Region1Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.SigmoidProduct

variable (V : (c : Dev nD) → (b : Ref sig .tc) → Buf (Elt Ideal) ((c : Thread nD τ).loc b))

theorem hz : (![0, 0] : Fin 2 → Nat) = fun _ => 0 := funext fun a => by fin_cases a <;> rfl

/-- The body's one store: narrowing to bf16, transposing, the product into zero and the logistic function are
    σ(x · wᵀ) of the two loaded blocks. -/
theorem payload1 (x : Vec Ideal S5000x128 .f32) (w : Vec Ideal S128x128 .f32) :
    k1_pay1 (F := Ideal) x w = sigmoidProduct (A := 5000) (K := 128) (C := 128) x w := by
  unfold k1_pay1
  rw [shapeCast_self]
  exact kernel_spelling (A := 5000) (K := 128) (C := 128) x w _ _

/-- The printed index maps over the grid: the row operand's and the result's block index is the point, on
    axis 0; the weight's block never moves. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem point_of_block1 : ∀ q : Fin 10, ∃ t : Fin cfg1.N, t.val = q.val :=
  (by decide +kernel : ∀ q : Fin 10, ∃ t : Fin grid1.N, t.val = q.val)

/-- What point `t` writes back is block `t` of σ(x · wᵀ) of the two arrays as the region finds them: rows
    5000·t … 5000·t + 4999 of the result depend on the same rows of x and on all of w. -/
theorem flushed1 (c : Dev nD) (t : Fin cfg1.N) :
    (dat1 V c).flushed 2 t = ((cfg1.win 2).blk t).view.read (Elt Ideal)
      (sigmoidProduct (A := 50000) (K := 128) (C := 128) (V c main_v70) (V c main_arg8)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [payload1]
  obtain ⟨e0, e1, e2, e3, e4, e5⟩ := index_maps1 t
  funext j
  refine sigmoidProduct_congr (A := 5000) (A' := 50000) (K := 128) (C := 128) _ _ _ _ j _ (fun k => ?_) (fun k => ?_)
  · show V c main_v70 (((cfg1.win 0).blk t).view.emb (ix2 (j 0) k)) = V c main_v70 (ix2 ((((cfg1.win 2).blk t).view.emb j) 0) k)
    refine congrArg (V c main_v70) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg8 (((cfg1.win 1).blk t).view.emb (ix2 (j 1) k)) = V c main_arg8 (ix2 ((((cfg1.win 2).blk t).view.emb j) 1) k)
    refine congrArg (V c main_arg8) (funext fun a => Fin.ext ?_)
    match a with
    | ⟨0, _⟩ => show win1_1.index t (0 : Fin 2) * 128 + 1 * (j 1).val = win1_2.index t (1 : Fin 2) * 128 + 1 * (j 1).val; omega
    | ⟨1, _⟩ => show win1_1.index t (1 : Fin 2) * 128 + 1 * k.val = k.val; omega

/-- An index of the result array lies in point `t`'s block iff each coordinate is in the block's range. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v72).slice (win1_2.rect t)).set ↔ _
  rw [View.set_slice_whole, Rect.mem_set_unit]
  exact Iff.rfl

/-- The blocks cover the result array: row r is in the block of point r / 5000. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := point_of_block1 ⟨(i 0).val / 5000, by omega⟩
  have ht' : t.val = (i 0).val / 5000 := ht
  obtain ⟨e0, e1, e2, e3, e4, e5⟩ := index_maps1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array when the region is left: σ(x · wᵀ) of the two arrays the region was entered with. -/
theorem result1 (c : Dev nD) :
    (dat1 V c).arrAt 2 cfg1.N = sigmoidProduct (A := 50000) (K := 128) (C := 128) (V c main_v70) (V c main_arg8) :=
  (dat1 V c).arrAt_eq_of_cover 2 _ (fun t _ => flushed1 V c t) (covered1)

end Cert.KernelIdeal.Region1Value

end
-- ==== Proof.KernelValue.lean ====
/-
  The idealized kernel's three results as functions of what the host prefix computed and of the arguments.

  @main computes on the host the two message arrays (main_v67, [100000, 128], and main_v70, [50000, 128]), runs the
  two matrix-unit regions on (main_v67, W_u) and (main_v70, W_i), and finishes on the host with r_emb · W_relᵀ.
  The last segment boundary holds, at the first result, what region 0 left there, σ(main_v67 · W_uᵀ): the second
  region and the host tail do not write it. At the second result it holds what region 1 left, σ(main_v70 · W_iᵀ),
  and region 1 is entered with main_v70 and W_i as region 0 was (region 0 writes neither). The third result is the
  host tail's dot_general of two arguments, which no segment writes.
-/
import proofs.«116732_j45045617000625_1_alg».proof.Proof.KernelRun
import proofs.«116732_j45045617000625_1_alg».proof.Proof.Region0Value
import proofs.«116732_j45045617000625_1_alg».proof.Proof.Region1Value
import Idealize.ShloMosaic.Lib.StableHlo.Run

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen Cert.Lib.SigmoidProduct

variable (m : (ℓ : Loc nD τ sig) → Buf (Elt Ideal) ℓ) (ρ : Dev nD → PrngReg)

/-- The host tail writes neither of the first two results nor an argument it reads. -/
theorem tail_keeps (c : Dev nD) :
    W8 m ρ c (Proc.devRef .tc main_v71) = W7 m ρ c (Proc.devRef .tc main_v71)
    ∧ W8 m ρ c (Proc.devRef .tc main_v72) = W7 m ρ c (Proc.devRef .tc main_v72)
    ∧ W8 m ρ c (Proc.devRef .tc main_arg2) = W7 m ρ c (Proc.devRef .tc main_arg2)
    ∧ W8 m ρ c (Proc.devRef .tc main_arg7) = W7 m ρ c (Proc.devRef .tc main_arg7)
    ∧ W8 m ρ c (Proc.devRef .tc main_arg8) = W7 m ρ c (Proc.devRef .tc main_arg8)
    ∧ W8 m ρ c (Proc.devRef .tc main_arg9) = W7 m ρ c (Proc.devRef .tc main_arg9) := by
  refine ⟨?_, ?_, ?_, ?_, ?_, ?_⟩ <;>
    (show StableHlo.after hostOps2 (W7 m ρ c) _ = _; after_results_simp)

/-- A weight a region only reads (an input window's array, which the pipeline leaves as entered) is, when region 0 is
    entered, what was launched. -/
theorem entry_arg7 (c : Dev nD) : V5 m ρ c main_arg7 = m ((c.tc : Thread nD τ).loc main_arg7) :=
  ((((tail_keeps m ρ c).2.2.2.1.trans (W7_of_ne m ρ c main_arg7 (by decide))).trans
    ((W6_arr m ρ c 1).trans (((dat0 (V5 m ρ) c).arrAt_in 1 rfl _).trans (A_eq0 (V5 m ρ) c 1)))).symm).trans (W8_main_arg7 m ρ c)

theorem entry_arg8 (c : Dev nD) : V5 m ρ c main_arg8 = m ((c.tc : Thread nD τ).loc main_arg8) :=
  ((((tail_keeps m ρ c).2.2.2.2.1.trans
      ((W7_arr m ρ c 1).trans (((dat1 (V6 m ρ) c).arrAt_in 1 rfl _).trans (A_eq1 (V6 m ρ) c 1)))).trans
    (W6_of_ne m ρ c main_arg8 (by decide))).symm).trans (W8_main_arg8 m ρ c)

/-- The first result: σ(main_v67 · W_uᵀ), main_v67 as the host prefix left it. -/
theorem result0 (c : Dev nD) : W8 m ρ c (Proc.devRef .tc main_v71)
    = sigmoidProduct (A := 100000) (K := 128) (C := 128) (V5 m ρ c main_v67) (m ((c.tc : Thread nD τ).loc main_arg7)) :=
  calc W8 m ρ c (Proc.devRef .tc main_v71)
    _ = W7 m ρ c (Proc.devRef .tc main_v71) := (tail_keeps m ρ c).1
    _ = W6 m ρ c (Proc.devRef .tc main_v71) := W7_of_ne m ρ c main_v71 (by decide)
    _ = (dat0 (V5 m ρ) c).arrAt 2 cfg0.N := W6_arr m ρ c 2
    _ = sigmoidProduct (A := 100000) (K := 128) (C := 128) (V5 m ρ c main_v67) (V5 m ρ c main_arg7) := Region0Value.result0 (V5 m ρ) c
    _ = _ := by rw [entry_arg7]

/-- The second result: σ(main_v70 · W_iᵀ), main_v70 as the host prefix left it. -/
theorem result1 (c : Dev nD) : W8 m ρ c (Proc.devRef .tc main_v72)
    = sigmoidProduct (A := 50000) (K := 128) (C := 128) (V5 m ρ c main_v70) (m ((c.tc : Thread nD τ).loc main_arg8)) :=
  calc W8 m ρ c (Proc.devRef .tc main_v72)
    _ = W7 m ρ c (Proc.devRef .tc main_v72) := (tail_keeps m ρ c).2.1
    _ = (dat1 (V6 m ρ) c).arrAt 2 cfg1.N := W7_arr m ρ c 2
    _ = sigmoidProduct (A := 50000) (K := 128) (C := 128) (V6 m ρ c main_v70) (V6 m ρ c main_arg8) := Region1Value.result1 (V6 m ρ) c
    _ = sigmoidProduct (A := 50000) (K := 128) (C := 128) (V5 m ρ c main_v70) (V5 m ρ c main_arg8) := by
          rw [show V6 m ρ c main_v70 = V5 m ρ c main_v70 from W6_of_ne m ρ c main_v70 (by decide),
            show V6 m ρ c main_arg8 = V5 m ρ c main_arg8 from W6_of_ne m ρ c main_arg8 (by decide)]
    _ = _ := by rw [entry_arg8]

/-- The third result: the host tail's product of r_emb with W_rel transposed, both as launched. -/
theorem result2 (c : Dev nD) : W8 m ρ c (Proc.devRef .tc main_v74)
    = Host.dotGeneral (F := Ideal) (φ₁ := .f32) (φ₂ := .f32) dot_S2x128_S128x128_S2x128_1_0_0_1_n_n none (m ((c.tc : Thread nD τ).loc main_arg2))
        (transpose S128x128 [1, 0] (m ((c.tc : Thread nD τ).loc main_arg9)) transposes_S128x128_S128x128_1_0) := by
  have h2 : W7 m ρ c (Proc.devRef .tc main_arg2) = m ((c.tc : Thread nD τ).loc main_arg2) :=
    (tail_keeps m ρ c).2.2.1.symm.trans (W8_main_arg2 m ρ c)
  have h9 : W7 m ρ c (Proc.devRef .tc main_arg9) = m ((c.tc : Thread nD τ).loc main_arg9) :=
    (tail_keeps m ρ c).2.2.2.2.2.symm.trans (W8_main_arg9 m ρ c)
  show StableHlo.after hostOps2 (W7 m ρ c) (Proc.devRef .tc main_v74) = _
  after_results_simp
  rw [h2, h9]

/-- The run of the idealized kernel with its three results named. -/
theorem run : θ_run defs (onTc (τ := τ) (main (F := Ideal))) ⟨m, fun _ => 0, ρ⟩ (fun r => ∀ c : Dev nD,
      r.2.mem ((c.tc : Thread nD τ).loc main_v71)
        = sigmoidProduct (A := 100000) (K := 128) (C := 128) (V5 m ρ c main_v67) (m ((c.tc : Thread nD τ).loc main_arg7))
      ∧ r.2.mem ((c.tc : Thread nD τ).loc main_v72)
        = sigmoidProduct (A := 50000) (K := 128) (C := 128) (V5 m ρ c main_v70) (m ((c.tc : Thread nD τ).loc main_arg8))
      ∧ r.2.mem ((c.tc : Thread nD τ).loc main_v74)
        = Host.dotGeneral (F := Ideal) (φ₁ := .f32) (φ₂ := .f32) dot_S2x128_S128x128_S2x128_1_0_0_1_n_n none (m ((c.tc : Thread nD τ).loc main_arg2))
            (transpose S128x128 [1, 0] (m ((c.tc : Thread nD τ).loc main_arg9)) transposes_S128x128_S128x128_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result0 m ρ c), (h c).2.1.trans (result1 m ρ c),
      (h c).2.2.1.trans (result2 m ρ c), (h c).2.2.2⟩)
    (Cert.KernelIdeal.ResultsRun.run_results (F := Ideal) m ρ)

end Cert.KernelIdeal.Results

end
-- ==== Proof.RefFolds.lean ====
/-
  The reference's first two results as σ(x · wᵀ) of its own message arrays.

  The reference computes each message array on the host, multiplies it with the transposed weight by a dot_general
  and applies 1 / (1 + exp(-·)) written out in host operations. Its composed term for a result is therefore the
  host spelling of σ(x · wᵀ) (the general lemma) at x = the message array, and the message array is what the run's
  operations, folded from the launch memory, leave in its buffer (main_v67, main_v70): the same operations read
  back one by one.
-/
import proofs.«116732_j45045617000625_1_alg».proof.Proof.Gen.ReferenceIdeal.Run
import proofs.«116732_j45045617000625_1_alg».proof.Proof.LibSigmoidProduct
import Idealize.ShloMosaic.Lib.StableHlo.Run

set_option maxRecDepth 16384

noncomputable section

namespace Cert.ReferenceIdeal.Folds

open Idealize.ShloMosaic Idealize.ShloMosaic.TcCoe Idealize.SL.Sem Idealize.ShloMosaic.StableHlo
open Cert.ReferenceIdeal Cert.ReferenceIdeal.Gen Cert.Lib.SigmoidProduct

variable (m : (ℓ : Loc nD τ sig) → Buf (Elt Ideal) ℓ)

/-- What the reference's operations, in order from the launch memory, leave in a buffer. -/
abbrev left (c : Dev nD) (b : Ref sig .tc) : Buf (Elt Ideal) ((c.tc : Thread nD τ).loc b) :=
  StableHlo.after (Cert.ReferenceIdeal.Value.ops (F := Ideal)) (fun b => m ((c : Dev nD), b)) (Proc.devRef .tc b)

set_option maxHeartbeats 4000000 in
/-- The first result is σ(main_v67 · W_uᵀ). -/
theorem result0 (c : Dev nD) : Cert.ReferenceIdeal.Value.res_main_v78 m c
    = sigmoidProduct (A := 100000) (K := 128) (C := 128) (left m c main_v67) (m ((c.tc : Thread nD τ).loc main_arg7)) := by
  unfold Cert.ReferenceIdeal.Value.res_main_v78
  refine (host_spelling (A := 100000) (K := 128) (C := 128) _ _ _ _ _).trans ?_
  refine congrArg (fun X => sigmoidProduct (A := 100000) (K := 128) (C := 128) X _) ?_
  symm
  show StableHlo.after (Cert.ReferenceIdeal.Value.ops (F := Ideal)) (fun b => m ((c : Dev nD), b)) (Proc.devRef .tc main_v67) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- The second result is σ(main_v70 · W_iᵀ). -/
theorem result1 (c : Dev nD) : Cert.ReferenceIdeal.Value.res_main_v86 m c
    = sigmoidProduct (A := 50000) (K := 128) (C := 128) (left m c main_v70) (m ((c.tc : Thread nD τ).loc main_arg8)) := by
  unfold Cert.ReferenceIdeal.Value.res_main_v86
  refine (host_spelling (A := 50000) (K := 128) (C := 128) _ _ _ _ _).trans ?_
  refine congrArg (fun X => sigmoidProduct (A := 50000) (K := 128) (C := 128) X _) ?_
  symm
  show StableHlo.after (Cert.ReferenceIdeal.Value.ops (F := Ideal)) (fun b => m ((c : Dev nD), b)) (Proc.devRef .tc main_v70) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

end Cert.ReferenceIdeal.Folds

end
-- ==== Proof.Bridge.lean ====
/-
  The two programs' message arrays are one value.

  Both programs run the SAME host operations on the arguments up to the two message arrays (the concatenations, the
  two degree scatter-adds clipped at one, the gathers, the normalisation weights · 1 / (sqrt(deg_u) · sqrt(deg_i)),
  the products with the gathered relation rows and the two scatter-adds into [100000, 128] and [50000, 128]). So
  what the reference's operations leave in main_v67 and main_v70 is what the kernel's host prefix leaves there when
  region 0 is entered, once the arguments agree: each side's fold is read back operation by operation into the same
  composition of the same operations, and the chain itself is never opened (no gather, scatter-add or square root
  is unfolded: the two terms are compared as they stand).
-/
import proofs.«116732_j45045617000625_1_alg».proof.Proof.Gen.KernelIdeal.Frame
import proofs.«116732_j45045617000625_1_alg».proof.Proof.Gen.ReferenceIdeal.Run
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

set_option maxHeartbeats 4000000 in
/-- The user-side message array (it gathers the item rows): the reference's is the kernel's. -/
theorem messages_u (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    StableHlo.after (Cert.ReferenceIdeal.Value.ops (F := Ideal)) (fun b => m' ((c : Dev Cert.ReferenceIdeal.nD), b)) (Proc.devRef .tc Cert.ReferenceIdeal.main_v67)
      = Cert.KernelIdeal.Gen.V5 m ρ c Cert.KernelIdeal.main_v67 := by
  show _ = StableHlo.after Cert.KernelIdeal.Gen.hostOps0_4 (StableHlo.after Cert.KernelIdeal.Gen.hostOps0_3 (StableHlo.after Cert.KernelIdeal.Gen.hostOps0_2
    (StableHlo.after Cert.KernelIdeal.Gen.hostOps0_1 (StableHlo.after Cert.KernelIdeal.Gen.hostOps0 (Cert.KernelIdeal.Gen.W0 m ρ c)))))
      (Proc.devRef .tc Cert.KernelIdeal.main_v67)
  have h1' : m' ((c : Dev Cert.ReferenceIdeal.nD), Proc.devRef .tc Cert.ReferenceIdeal.main_arg1) = Cert.KernelIdeal.Gen.W0 m ρ c (Proc.devRef .tc Cert.KernelIdeal.main_arg1) := h1
  have h2' : m' ((c : Dev Cert.ReferenceIdeal.nD), Proc.devRef .tc Cert.ReferenceIdeal.main_arg2) = Cert.KernelIdeal.Gen.W0 m ρ c (Proc.devRef .tc Cert.KernelIdeal.main_arg2) := h2
  have h3' : m' ((c : Dev Cert.ReferenceIdeal.nD), Proc.devRef .tc Cert.ReferenceIdeal.main_arg3) = Cert.KernelIdeal.Gen.W0 m ρ c (Proc.devRef .tc Cert.KernelIdeal.main_arg3) := h3
  have h4' : m' ((c : Dev Cert.ReferenceIdeal.nD), Proc.devRef .tc Cert.ReferenceIdeal.main_arg4) = Cert.KernelIdeal.Gen.W0 m ρ c (Proc.devRef .tc Cert.KernelIdeal.main_arg4) := h4
  have h5' : m' ((c : Dev Cert.ReferenceIdeal.nD), Proc.devRef .tc Cert.ReferenceIdeal.main_arg5) = Cert.KernelIdeal.Gen.W0 m ρ c (Proc.devRef .tc Cert.KernelIdeal.main_arg5) := h5
  have h6' : m' ((c : Dev Cert.ReferenceIdeal.nD), Proc.devRef .tc Cert.ReferenceIdeal.main_arg6) = Cert.KernelIdeal.Gen.W0 m ρ c (Proc.devRef .tc Cert.KernelIdeal.main_arg6) := h6
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h1', h2', h3', h4', h5', h6']
  rfl

set_option maxHeartbeats 4000000 in
/-- The item-side message array (it gathers the user rows): the reference's is the kernel's. -/
theorem messages_i (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    StableHlo.after (Cert.ReferenceIdeal.Value.ops (F := Ideal)) (fun b => m' ((c : Dev Cert.ReferenceIdeal.nD), b)) (Proc.devRef .tc Cert.ReferenceIdeal.main_v70)
      = Cert.KernelIdeal.Gen.V5 m ρ c Cert.KernelIdeal.main_v70 := by
  show _ = StableHlo.after Cert.KernelIdeal.Gen.hostOps0_4 (StableHlo.after Cert.KernelIdeal.Gen.hostOps0_3 (StableHlo.after Cert.KernelIdeal.Gen.hostOps0_2
    (StableHlo.after Cert.KernelIdeal.Gen.hostOps0_1 (StableHlo.after Cert.KernelIdeal.Gen.hostOps0 (Cert.KernelIdeal.Gen.W0 m ρ c)))))
      (Proc.devRef .tc Cert.KernelIdeal.main_v70)
  have h0' : m' ((c : Dev Cert.ReferenceIdeal.nD), Proc.devRef .tc Cert.ReferenceIdeal.main_arg0) = Cert.KernelIdeal.Gen.W0 m ρ c (Proc.devRef .tc Cert.KernelIdeal.main_arg0) := h0
  have h2' : m' ((c : Dev Cert.ReferenceIdeal.nD), Proc.devRef .tc Cert.ReferenceIdeal.main_arg2) = Cert.KernelIdeal.Gen.W0 m ρ c (Proc.devRef .tc Cert.KernelIdeal.main_arg2) := h2
  have h3' : m' ((c : Dev Cert.ReferenceIdeal.nD), Proc.devRef .tc Cert.ReferenceIdeal.main_arg3) = Cert.KernelIdeal.Gen.W0 m ρ c (Proc.devRef .tc Cert.KernelIdeal.main_arg3) := h3
  have h4' : m' ((c : Dev Cert.ReferenceIdeal.nD), Proc.devRef .tc Cert.ReferenceIdeal.main_arg4) = Cert.KernelIdeal.Gen.W0 m ρ c (Proc.devRef .tc Cert.KernelIdeal.main_arg4) := h4
  have h5' : m' ((c : Dev Cert.ReferenceIdeal.nD), Proc.devRef .tc Cert.ReferenceIdeal.main_arg5) = Cert.KernelIdeal.Gen.W0 m ρ c (Proc.devRef .tc Cert.KernelIdeal.main_arg5) := h5
  have h6' : m' ((c : Dev Cert.ReferenceIdeal.nD), Proc.devRef .tc Cert.ReferenceIdeal.main_arg6) = Cert.KernelIdeal.Gen.W0 m ρ c (Proc.devRef .tc Cert.KernelIdeal.main_arg6) := h6
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h0', h2', h3', h4', h5', h6']
  rfl

end Cert.Bridge

end
-- ==== Proof.lean ====
/-
  The certificate of a relational graph-convolution layer: messages are gathered, scaled and segment-summed on the
  host, and the per-node transform σ(msg · Wᵀ) is computed by two pipelined matrix-unit kernels (users: [100000, 128]
  in 20 blocks of 5000 rows; items: [50000, 128] in 10 blocks), against a reference that computes the same messages
  with the same host operations and the transform as 1 / (1 + exp(-(msg · Wᵀ))) on the host.

  Why the two agree at the ideal values:
  * the message arrays are one value in both programs (the same host operations on the same arguments; never opened);
  * an entry (r, q) of either transform is σ(Σ_k msg[r, k] · W[q, k]): the kernel narrows both operands to bf16
    (the identity on ideal values), transposes W, multiplies into a zero accumulator and applies the logistic
    function, whose ideal value is 1 / (1 + e^(-y)); the reference transposes W, takes a dot_general and writes the
    same expression out. Both sum the same products over k in the same order, so no law of arithmetic (and no
    finiteness of the inputs) is needed;
  * a block of 5000 rows of the kernel's result depends only on the same rows of msg, so the blocks are restrictions
    of the whole-array function and they tile the result;
  * the third result, r_emb · W_relᵀ, is one host dot_general of two arguments in both programs.
  The three frames are the generated ones (the reference's is its generated run with the results dropped), and the
  idealization rewrote nothing, so `preserves` is trivial.
-/
import proofs.«116732_j45045617000625_1_alg».proof.Defs
import proofs.«116732_j45045617000625_1_alg».proof.Proof.Gen.Kernel
import proofs.«116732_j45045617000625_1_alg».proof.Proof.Gen.Kernel.Skeleton
import proofs.«116732_j45045617000625_1_alg».proof.Proof.Gen.Kernel.Launch
import proofs.«116732_j45045617000625_1_alg».proof.Proof.Gen.Kernel.Points
import proofs.«116732_j45045617000625_1_alg».proof.Proof.Gen.Kernel.Frame
import proofs.«116732_j45045617000625_1_alg».proof.Proof.Gen.KernelIdeal
import proofs.«116732_j45045617000625_1_alg».proof.Proof.Gen.KernelIdeal.Skeleton
import proofs.«116732_j45045617000625_1_alg».proof.Proof.Gen.KernelIdeal.Launch
import proofs.«116732_j45045617000625_1_alg».proof.Proof.Gen.KernelIdeal.Points
import proofs.«116732_j45045617000625_1_alg».proof.Proof.Gen.KernelIdeal.Frame
import proofs.«116732_j45045617000625_1_alg».proof.Proof.Gen.ReferenceIdeal
import proofs.«116732_j45045617000625_1_alg».proof.Proof.Gen.ReferenceIdeal.Run
import proofs.«116732_j45045617000625_1_alg».proof.Proof.Gen.Pre_finite_inputs
import proofs.«116732_j45045617000625_1_alg».proof.Proof.KernelValue
import proofs.«116732_j45045617000625_1_alg».proof.Proof.RefFolds
import proofs.«116732_j45045617000625_1_alg».proof.Proof.Bridge
import Idealize.ShloMosaic.Adequacy
import Idealize.ShloMosaic.Init

noncomputable section

namespace Cert.Proof

open Idealize.ShloMosaic Idealize.SL.Sem Cert.Kernel Cert.Lib.SigmoidProduct

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the ten arguments both programs end with σ(msg_u · W_uᵀ), σ(msg_i · W_iᵀ) and
    r_emb · W_relᵀ, the message arrays being the kernel's host prefix's. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · refine (Cert.ReferenceIdeal.Folds.result0 m' c).trans ?_
    rw [a7]
    exact congrArg (fun X => sigmoidProduct (A := 100000) (K := 128) (C := 128) X _)
      (Cert.Bridge.messages_u m ρ m' c a1 a2 a3 a4 a5 a6)
  · refine (Cert.ReferenceIdeal.Folds.result1 m' c).trans ?_
    rw [a8]
    exact congrArg (fun X => sigmoidProduct (A := 50000) (K := 128) (C := 128) X _)
      (Cert.Bridge.messages_i m ρ m' c a0 a2 a3 a4 a5 a6)
  · rw [a2, a9]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
